-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 31
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x3072, .bf16⟩
  | .hbm, ⟨8, _⟩ => ⟨S1024x1024, .bf16⟩
  | .hbm, ⟨9, _⟩ => ⟨S1x3072, .f32⟩
  | .hbm, ⟨10, _⟩ => ⟨S4096x3072, .bf16⟩
  | .hbm, ⟨11, _⟩ => ⟨S2x2048x3072, .bf16⟩
  | .hbm, ⟨12, _⟩ => ⟨S2x2048x1024, .bf16⟩
  | .hbm, ⟨13, _⟩ => ⟨S2x2048x1024, .bf16⟩
  | .hbm, ⟨14, _⟩ => ⟨S2x2048x1024, .bf16⟩
  | .hbm, ⟨15, _⟩ => ⟨S2x2048x16x64, .bf16⟩
  | .hbm, ⟨16, _⟩ => ⟨S2x16x2048x64, .bf16⟩
  | .hbm, ⟨17, _⟩ => ⟨S32x2048x64, .bf16⟩
  | .hbm, ⟨18, _⟩ => ⟨S2x2048x16x64, .bf16⟩
  | .hbm, ⟨19, _⟩ => ⟨S2x16x2048x64, .bf16⟩
  | .hbm, ⟨20, _⟩ => ⟨S32x2048x64, .bf16⟩
  | .hbm, ⟨21, _⟩ => ⟨S2x2048x16x64, .bf16⟩
  | .hbm, ⟨22, _⟩ => ⟨S2x16x2048x64, .bf16⟩
  | .hbm, ⟨23, _⟩ => ⟨S32x2048x64, .bf16⟩
  | .hbm, ⟨24, _⟩ => ⟨S32x2048x64, .bf16⟩
  | .hbm, ⟨25, _⟩ => ⟨S2x16x2048x64, .bf16⟩
  | .hbm, ⟨26, _⟩ => ⟨S2x2048x16x64, .bf16⟩
  | .hbm, ⟨27, _⟩ => ⟨S4096x1024, .bf16⟩
  | .hbm, ⟨28, _⟩ => ⟨S1x1024, .f32⟩
  | .hbm, ⟨29, _⟩ => ⟨S4096x1024, .f32⟩
  | .hbm, ⟨30, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x64x2048, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x64x2048_S2x2048x16x64_0_3_1_2 : S2x16x64x2048.Transposes [0, 3, 1, 2] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x64_S2x16x2048x2048_S2x16x64x2048_2_3_3_2_01_01_wf : DotDims.WF S2x16x2048x64 S2x16x2048x2048 S2x16x64x2048 [2] [3] [3] [2] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x64_S2x16x2048x2048_S2x16x64x2048_2_3_3_2_01_01 : DotDims S2x16x2048x64 S2x16x2048x2048 S2x16x64x2048 where
  lhsContracting := [2]
  rhsContracting := [3]
  lhsNonContracting := [3]
  rhsNonContracting := [2]
  lhsBatch := [0, 1]
  rhsBatch := [0, 1]
  wf := dot_S2x16x2048x64_S2x16x2048x2048_S2x16x64x2048_2_3_3_2_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.Spec.lean ====
/-
  What the attention layer computes, stated once over the extended reals and independently of either program.
  Three stage functions: a dense layer with bias (`linear`), scaled-dot-product attention for a stack of heads
  (`attn`, built from one row's softmax-weighted combination `softmaxDot`), and the constants both programs spell.
  A format change is the identity on the extended reals, so the bf16 casts of the kernel leave no trace here.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The pattern of `-∞`, the value both maxima start from. -/
abbrev negInf : EReal := Ideal.ofBits .f32 0xFF800000#32

/-- The pattern of `0.125`, the kernel's score scale `1/√64`. -/
abbrev eighth : EReal := Ideal.ofBits .f32 0x3E000000#32

/-- `64.0` denotes the real 64. -/
theorem ofBits_64 : Ideal.ofBits .f32 0x42800000#32 = ((64 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- Dividing by `√64` is multiplying by `1/8`, on every extended real: `√64 = 8` exactly, and a quotient by a
    nonzero real is the product with its reciprocal whatever the numerator. -/
theorem div_sqrt_64 (x : EReal) : Ideal.div x (Ideal.sqrt (Ideal.ofBits .f32 0x42800000#32)) = x * eighth := by
  have h8 : Real.sqrt 64 = 8 := by
    rw [show (64 : ℝ) = 8 ^ 2 by norm_num]; exact Real.sqrt_sq (by norm_num)
  rw [ofBits_64, Ideal.sqrt_coe, if_neg (by norm_num), h8, Ideal.div_coe (by norm_num : (8 : ℝ) ≠ 0)]
  show x * _ = x * Ideal.ofBits .f32 0x3E000000#32
  rw [ofBits_eighth]

/-- A dense layer: row `i 0` of `a` against column `i 1` of `w`, plus the bias entry of that column. -/
def linear {M K N : Nat} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, a (ix2 (i 0) k) * w (ix2 k (i 1))) + b (ix2 (0 : Fin 1) (i 1))

/-- The maximum a softmax row subtracts: the scores' maximum, started from `-∞` and met with `-∞` once more. -/
def rowMax {n : Nat} (sc : Fin n → EReal) : EReal := max negInf ((Finset.univ : Finset (Fin n)).fold max negInf sc)

/-- One query row of attention for one output feature: the softmax of the scores `sc` against the values `v`. -/
def softmaxDot {n : Nat} (sc : Fin n → EReal) (v : Fin n → EReal) : EReal :=
  ∑ k : Fin n, Ideal.div (Ideal.exp (sc k - rowMax sc)) (∑ k' : Fin n, Ideal.exp (sc k' - rowMax sc)) * v k

/-- Scaled-dot-product attention over a stack of 32 heads of 2048 positions and 64 features: the score of query `s` against
    key `kk` is their feature product times 1/8. -/
def attn (q k v : (⟨3, ![32, 2048, 64]⟩ : Shape).Idx → EReal) : (⟨3, ![32, 2048, 64]⟩ : Shape).Idx → EReal :=
  fun i => softmaxDot (fun kk : Fin 2048 => (∑ d : Fin 64, q (ix3 (i 0) (i 1) d) * k (ix3 (i 0) kk d)) * eighth)
    (fun kk : Fin 2048 => v (ix3 (i 0) kk (i 2)))

end Cert.Spec

end
-- ==== Proof.Region0.lean ====
/-
  Region 0 of the kernel program read as a value.
-/
import proofs.«148321_j71133248356497_1_alg».proof.Proof.Gen.KernelIdeal.Frame
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The dense layer's dimension numbers: the left operand's row is the output's row, -/
theorem lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- its column is the contracted coordinate; -/
theorem lhs_col (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- the right operand's row is the contracted coordinate, -/
theorem rhs_row (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- and its column is the output's column. -/
theorem rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The matrix product of two blocks at an entry: the row of the left against the column of the right. -/
theorem matmul_entry (x0 : FVec Ideal S512x1024 .bf16) (x1 : FVec Ideal S1024x3072 .bf16) (p : Fin 512) (q : Fin 3072) :
    matmul dot_S512x1024_S1024x3072_S512x3072_1_0_0_1_n_n none x0 x1 (constant (F := Ideal) S512x3072 .f32 0x00000000#32) (ix2 p q)
      = ∑ k : Fin 1024, x0 (ix2 p k) * x1 (ix2 k q) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The body's payload at an entry: that product plus the bias row's entry of the column. -/
theorem pay_entry (x0 : Vec Ideal S512x1024 .bf16) (x1 : Vec Ideal S1024x3072 .bf16) (x2 : Vec Ideal S1x3072 .f32) (p : Fin 512) (q : Fin 3072) :
    k0_pay1 (F := Ideal) x0 x1 x2 (ix2 p q) = (∑ k : Fin 1024, x0 (ix2 p k) * x1 (ix2 k q)) + x2 (ix2 (0 : Fin 1) q) := by
  unfold k0_pay1
  simp only [shapeCast_self]
  rw [truncf_apply, addf_apply, matmul_entry]
  refine congrArg (_ + ·) ?_
  refine broadcastTo_apply _ _ _ _ fun a => ?_
  match a with
  | ⟨0, _⟩ => show (0 : Nat) = if (1 : Nat) = 1 then 0 else _; rw [if_pos rfl]
  | ⟨1, _⟩ => show q.val = if (3072 : Nat) = 1 then 0 else q.val; rw [if_neg (by decide)]

/-- The zero offsets. -/
theorem hz : (![0, 0] : Fin 2 → Nat) = fun _ => 0 := funext fun a => by
  match a with
  | ⟨0, _⟩ => rfl
  | ⟨1, _⟩ => rfl

/-- The block indices over the grid: the left operand's and the output's row block is the grid point, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at grid point `t` is rows `512 t … 512 t + 511` of its array. -/
theorem blk0_apply (c : Dev nD) (t : Fin cfg0.N) (x : S512x1024.Idx) (i : S4096x1024.Idx)
    (h0 : (i 0).val = 512 * t.val + (x 0).val) (h1 : (i 1).val = (x 1).val) :
    (iblk0 V c 0 t : Vec Ideal S512x1024 .bf16) x = (V c main_v1 : S4096x1024.Idx → EReal) i := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- The right operand's block is its whole array at every grid point. -/
theorem blk1_apply (c : Dev nD) (t : Fin cfg0.N) (x : S1024x3072.Idx) (i : S1024x3072.Idx)
    (h0 : (i 0).val = (x 0).val) (h1 : (i 1).val = (x 1).val) :
    (iblk0 V c 1 t : Vec Ideal S1024x3072 .bf16) x = (V c main_v2 : S1024x3072.Idx → EReal) i := by
  obtain ⟨-, -, e0, e1, -⟩ := idx_facts t
  unfold iblk0
  rw [View.read_apply]
  show V c main_v2 _ = V c main_v2 _
  congr 1
  funext a
  apply Fin.ext
  match a with
  | ⟨0, _⟩ => show win0_1.index t (0 : Fin 2) * 1024 + 1 * (x 0).val = (i 0).val; rw [e0, h0]; omega
  | ⟨1, _⟩ => show win0_1.index t (1 : Fin 2) * 3072 + 1 * (x 1).val = (i 1).val; rw [e1, h1]; omega

/-- The bias row's block is its whole array at every grid point. -/
theorem blk2_apply (c : Dev nD) (t : Fin cfg0.N) (x : S1x3072.Idx) (i : S1x3072.Idx)
    (h0 : (i 0).val = (x 0).val) (h1 : (i 1).val = (x 1).val) :
    (iblk0 V c 2 t : Vec Ideal S1x3072 .f32) x = (V c main_v4 : S1x3072.Idx → EReal) i := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t (0 : Fin 2) * 1 + 1 * (x 0).val = (i 0).val; rw [e0, h0]; omega
  | ⟨1, _⟩ => show win0_2.index t (1 : Fin 2) * 3072 + 1 * (x 1).val = (i 1).val; rw [e1, h1]; omega

/-- A row of a left block against a column of a right block plus a bias entry is the dense layer at an entry `i` of the
    whole arrays, once the blocks' entries are the arrays' at row `i 0` and column `i 1`. -/
theorem linear_of_blocks (a : Vec Ideal S4096x1024 .bf16) (w : Vec Ideal S1024x3072 .bf16) (b : Vec Ideal S1x3072 .f32)
    (x0 : Vec Ideal S512x1024 .bf16) (x1 : Vec Ideal S1024x3072 .bf16) (x2 : Vec Ideal S1x3072 .f32)
    (p : Fin 512) (q : Fin 3072) (i : S4096x3072.Idx)
    (h0 : ∀ k : Fin 1024, x0 (ix2 p k) = a (ix2 (i 0) k))
    (h1 : ∀ k : Fin 1024, x1 (ix2 k q) = w (ix2 k (i 1)))
    (h2 : x2 (ix2 (0 : Fin 1) q) = b (ix2 (0 : Fin 1) (i 1))) :
    (∑ k : Fin 1024, x0 (ix2 p k) * x1 (ix2 k q)) + x2 (ix2 (0 : Fin 1) q) = Cert.Spec.linear a w b i := by
  unfold Cert.Spec.linear
  rw [h2]
  exact congrArg (· + _) (Finset.sum_congr rfl fun k _ => by rw [h0 k, h1 k])

/-- What grid point `t` writes back is block `t` of the dense layer of the arrays as the region finds them. -/
theorem flushed_eq (c : Dev nD) (t : Fin cfg0.N) :
    (dat0 (F := Ideal) V c).flushed 3 t
      = ((cfg0.win 3).blk t).view.read (Elt Ideal) (Cert.Spec.linear (V c main_v1) (V c main_v2) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨-, -, -, -, -, -, e0, e1⟩ := idx_facts t
  funext j
  obtain ⟨p, q, rfl⟩ : ∃ (p : Fin 512) (q : Fin 3072), j = ix2 p q := ⟨j 0, j 1, eq_ix2 j⟩
  refine (pay_entry (iblk0 V c 0 t) (iblk0 V c 1 t) (iblk0 V c 2 t) p q).trans ?_
  have r0 : ((((cfg0.win 3).blk t).view.emb (ix2 p q)) 0).val = 512 * t.val + p.val := by
    show win0_3.index t (0 : Fin 2) * 512 + 1 * p.val = _; rw [e0]; omega
  have r1 : ((((cfg0.win 3).blk t).view.emb (ix2 p q)) 1).val = q.val := by
    show win0_3.index t (1 : Fin 2) * 3072 + 1 * q.val = _; rw [e1]; omega
  refine linear_of_blocks (V c main_v1) (V c main_v2) (V c main_v4) (iblk0 V c 0 t) (iblk0 V c 1 t) (iblk0 V c 2 t) p q
    (((cfg0.win 3).blk t).view.emb (ix2 p q)) (fun k => ?_) (fun k => ?_) ?_
  · exact blk0_apply V c t (ix2 p k) _ r0 rfl
  · exact blk1_apply V c t (ix2 k q) _ rfl r1
  · exact blk2_apply V c t (ix2 (0 : Fin 1) q) _ rfl r1

/-- An entry of the output array is in grid point `t`'s block iff each coordinate is in the block's range on its axis. -/
theorem mem_blk (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Every entry of the output array is written back: row `r` by grid point `r / 512`. -/
theorem cover (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : grid0.N = 8 := N_0
  have ht : (i 0).val / 512 < cfg0.N := by show (i 0).val / 512 < grid0.N; omega
  obtain ⟨-, -, -, -, -, -, e0, e1⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 3072 ≤ (i 1).val ∧ (i 1).val < win0_3.index ⟨(i 0).val / 512, ht⟩ (1 : Fin 2) * 3072 + 3072
    rw [e1]; omega

/-- After region 0 its output array is the dense layer of its three input arrays, whatever they held at entry. -/
theorem final (c : Dev nD) :
    (dat0 (F := Ideal) V c).arrAt 3 cfg0.N = Cert.Spec.linear (V c main_v1) (V c main_v2) (V c main_v4) := by
  exact (dat0 (F := Ideal) V c).arrAt_eq_of_cover 3 (Cert.Spec.linear (V c main_v1) (V c main_v2) (V c main_v4))
    (fun t _ => flushed_eq V c t) cover

end Cert.KernelIdeal.Region0

end
-- ==== Proof.Region1.lean ====
/-
  Region 1 of the kernel program read as a value.
-/
import proofs.«148321_j71133248356497_1_alg».proof.Proof.Gen.KernelIdeal.Frame
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout operations of the body read at coordinates -/

/-- A vector of `a` entries cast to an `[a, 1]` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products of the body at an index -/

theorem lhs_qk_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_qk_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_qk_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_qk_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product of a `[512, 64]` block with a `[64, 2048]` block into zero, at `(r, kk)`: row `r` against column `kk`. -/
theorem matmul_qk_apply (a : FVec Ideal S512x64 .bf16) (b : FVec Ideal S64x2048 .bf16) (r : Fin 512) (kk : Fin 2048) :
    matmul dot_S512x64_S64x2048_S512x2048_1_0_0_1_n_n none a b (constant (F := Ideal) S512x2048 .f32 0x00000000#32) (ix2 r kk)
      = ∑ d : Fin 64, a (ix2 r d) * b (ix2 d kk) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r kk) ((contrEquiv1 dot_S512x64_S64x2048_S512x2048_1_0_0_1_n_n 64 rfl rfl).symm k) = ix2 r k := funext fun ax => Fin.ext (by
    match ax with
    | ⟨0, _⟩ => exact lhs_qk_0 _ _
    | ⟨1, _⟩ => exact (lhs_qk_1 _ _).trans hk)
  have er : dot_S512x64_S64x2048_S512x2048_1_0_0_1_n_n.rhsIdx (ix2 r kk) ((contrEquiv1 dot_S512x64_S64x2048_S512x2048_1_0_0_1_n_n 64 rfl rfl).symm k) = ix2 k kk := funext fun ax => Fin.ext (by
    match ax with
    | ⟨0, _⟩ => exact (rhs_qk_0 _ _).trans hk
    | ⟨1, _⟩ => exact rhs_qk_1 _ _)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a `[512, 2048]` block with a `[2048, 64]` block into zero, at `(r, d)`: row `r` against column `d`. -/
theorem matmul_pv_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ kk : Fin 2048, a (ix2 r kk) * b (ix2 kk d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun ax => Fin.ext (by
    match ax with
    | ⟨0, _⟩ => exact (rhs_pv_0 _ _).trans hk
    | ⟨1, _⟩ => exact rhs_pv_1 _ _)
  rw [el, er]

/-! ## The body's arithmetic, stage by stage

The payload is cut here into the stages the mathematics names: the scaled scores of a query block against the key
block, the row maxima, the exponentials of the differences, their normalization, and the product with the values. -/

/-- The scaled scores: query block times transposed key block into zero, times the splat of `0.125`. -/
def scoresV (x0 : Vec Ideal S1x512x64 .bf16) (x1 : Vec Ideal S1x2048x64 .bf16) : FVec Ideal S512x2048 .f32 :=
  mulf (matmul dot_S512x64_S64x2048_S512x2048_1_0_0_1_n_n none
      (shapeCast S512x64 x0 shapeCasts_S1x512x64_S512x64 : FVec Ideal S512x64 .bf16)
      (transpose S64x2048 [1, 0] (shapeCast S2048x64 x1 shapeCasts_S1x2048x64_S2048x64 : FVec Ideal S2048x64 .bf16)
        transposes_S2048x64_p1_0_S64x2048 : FVec Ideal S64x2048 .bf16)
      (constant (F := Ideal) S512x2048 .f32 0x00000000#32))
    (broadcast S512x2048 (Scalar.ofBits (F := Ideal) .f32 0x3E000000#32))

/-- The row maxima of a block of scores, each started from `-∞` and met with `-∞` once more. -/
def rowMaxV (s : FVec Ideal S512x2048 .f32) : FVec Ideal S512 .f32 :=
  maximumf (broadcast S512 (Scalar.ofBits (F := Ideal) .f32 0xFF800000#32))
    (multiReduction (F := Ideal) .maximumf [1] S512 s 0xFF800000#32 reduces_S512x2048_S512 (.inl rfl) rfl)

/-- The exponentials of the scores less their row's maximum. -/
def expV (s : FVec Ideal S512x2048 .f32) : FVec Ideal S512x2048 .f32 :=
  exp (subf s (broadcastTo S512x2048 (shapeCast S512x1 (rowMaxV s) shapeCasts_S512_S512x1) broadcasts_S512x1_S512x2048))

/-- The exponentials over their row's sum. -/
def probV (s : FVec Ideal S512x2048 .f32) : FVec Ideal S512x2048 .f32 :=
  divf (expV s) (broadcastTo S512x2048
    (shapeCast S512x1 (multiReduction (F := Ideal) .add [1] S512 (expV s) 0x00000000#32 reduces_S512x2048_S512 (.inl rfl) rfl) shapeCasts_S512_S512x1)
    broadcasts_S512x1_S512x2048)

/-- The block the body stores: the normalized exponentials times the value block, as a `[1, 512, 64]` block. -/
def outV (s : FVec Ideal S512x2048 .f32) (v5 : FVec Ideal S2048x64 .bf16) : FVec Ideal S1x512x64 .bf16 :=
  shapeCast S1x512x64
    (truncf .bf16 (matmul dot_S512x2048_S2048x64_S512x64_1_0_0_1_n_n none (truncf .bf16 (probV s) bitsLt_bf16_f32) v5
      (constant (F := Ideal) S512x64 .f32 0x00000000#32)) bitsLt_bf16_f32)
    shapeCasts_S512x64_S1x512x64

/-- The body's payload is these stages composed. -/
theorem k1_pay1_eq (x0 : Vec Ideal S1x512x64 .bf16) (x1 x2 : Vec Ideal S1x2048x64 .bf16) :
    k1_pay1 (F := Ideal) x0 x1 x2
      = outV (scoresV x0 x1) (shapeCast S2048x64 x2 shapeCasts_S1x2048x64_S2048x64 : FVec Ideal S2048x64 .bf16) := rfl

/-- A scaled score at `(r, kk)`: query row `r` against key row `kk`, times `1/8`. -/
theorem scoresV_apply (x0 : Vec Ideal S1x512x64 .bf16) (x1 : Vec Ideal S1x2048x64 .bf16) (r : Fin 512) (kk : Fin 2048) :
    scoresV x0 x1 (ix2 r kk) = (∑ d : Fin 64, x0 (ix3 (0 : Fin 1) r d) * x1 (ix3 (0 : Fin 1) kk d)) * Cert.Spec.eighth := by
  unfold scoresV
  rw [mulf_apply, matmul_qk_apply]
  refine congrArg₂ (· * ·) (Finset.sum_congr rfl fun d _ => ?_) rfl
  rw [shapeCast_1ab_ab_apply, transpose_ix2_apply, shapeCast_1ab_ab_apply]

/-- The index of a `[512, 2048]` block over row `r` with column `kk` put back is `(r, kk)`. -/
theorem lift_row (r : Fin 512) (kk : Fin 2048) :
    (reduces_S512x2048_S512 : S512x2048.Reduces [1] S512).lift (ix1 r) kk = ix2 r kk :=
  funext fun ax => Fin.ext (by match ax with | ⟨0, _⟩ => rfl | ⟨1, _⟩ => rfl)

/-- A row's maximum as the body takes it is the specification's. -/
theorem rowMaxV_apply (s : FVec Ideal S512x2048 .f32) (r : Fin 512) :
    rowMaxV s (ix1 r) = Cert.Spec.rowMax (fun kk : Fin 2048 => s (ix2 r kk)) := by
  unfold rowMaxV Cert.Spec.rowMax
  rw [maximumf_apply, broadcast_apply]
  refine congrArg₂ max rfl ?_
  refine (Ideal.multiReduction_maximumf_single s 0xFF800000#32 reduces_S512x2048_S512 (.inl rfl) rfl (ix1 r)).trans ?_
  have e : (s ∘ (reduces_S512x2048_S512 : S512x2048.Reduces [1] S512).lift (ix1 r)) = fun kk : Fin 2048 => s (ix2 r kk) :=
    funext fun kk => congrArg s (lift_row r kk)
  rw [e]
  rfl

/-- An exponential at `(r, kk)`. -/
theorem expV_apply (s : FVec Ideal S512x2048 .f32) (r : Fin 512) (kk : Fin 2048) :
    expV s (ix2 r kk) = Ideal.exp (s (ix2 r kk) - Cert.Spec.rowMax (fun kk' : Fin 2048 => s (ix2 r kk'))) := by
  unfold expV
  show Ideal.exp (subf s _ (ix2 r kk)) = _
  rw [subf_apply, broadcastTo_a1_ab_apply, shapeCast_a_a1_apply, rowMaxV_apply]

/-- A normalized exponential at `(r, kk)`. -/
theorem probV_apply (s : FVec Ideal S512x2048 .f32) (r : Fin 512) (kk : Fin 2048) :
    probV s (ix2 r kk) = Ideal.div (expV s (ix2 r kk)) (∑ kk' : Fin 2048, expV s (ix2 r kk')) := by
  unfold probV
  rw [divf_apply, broadcastTo_a1_ab_apply, shapeCast_a_a1_apply]
  refine congrArg (Ideal.div _) ?_
  refine (Ideal.multiReduction_add_single (expV s) 0x00000000#32 reduces_S512x2048_S512 (.inl rfl) rfl (ix1 r)).trans ?_
  exact Finset.sum_congr rfl fun kk' _ => congrArg (expV s) (lift_row r kk')

/-- The stored block at `(0, r, d)` is the softmax of row `r`'s scores against column `d` of the values. -/
theorem outV_apply (s : FVec Ideal S512x2048 .f32) (v5 : FVec Ideal S2048x64 .bf16) (r : Fin 512) (d : Fin 64) :
    outV s v5 (ix3 (0 : Fin 1) r d) = Cert.Spec.softmaxDot (fun kk : Fin 2048 => s (ix2 r kk)) (fun kk : Fin 2048 => v5 (ix2 kk d)) := by
  unfold outV Cert.Spec.softmaxDot
  rw [shapeCast_ab_1ab_apply, truncf_apply, matmul_pv_apply]
  refine Finset.sum_congr rfl fun kk _ => ?_
  rw [truncf_apply, probV_apply, expV_apply]
  refine congrArg₂ (· * ·) (congrArg (Ideal.div _) (Finset.sum_congr rfl fun kk' _ => expV_apply s r kk')) rfl

/-- THE PAYLOAD AT AN INDEX: row `r`, feature `d` of the block the body stores is the softmax of the scaled products of
    query row `r` with every key row, against feature `d` of the value rows. -/
theorem pay_apply (x0 : Vec Ideal S1x512x64 .bf16) (x1 x2 : Vec Ideal S1x2048x64 .bf16) (r : Fin 512) (d : Fin 64) :
    k1_pay1 (F := Ideal) x0 x1 x2 (ix3 (0 : Fin 1) r d)
      = Cert.Spec.softmaxDot (fun kk : Fin 2048 => (∑ d' : Fin 64, x0 (ix3 (0 : Fin 1) r d') * x1 (ix3 (0 : Fin 1) kk d')) * Cert.Spec.eighth)
          (fun kk : Fin 2048 => x2 (ix3 (0 : Fin 1) kk d)) := by
  rw [k1_pay1_eq, outV_apply]
  refine congrArg₂ Cert.Spec.softmaxDot (funext fun kk => scoresV_apply x0 x1 r kk) (funext fun kk => ?_)
  rw [shapeCast_1ab_ab_apply]

/-! ## One point of the grid -/

/-- Whatever arrays `q`, `k`, `v` the three input blocks are rows of — the query block's row `r` being row `R` of head `b`,
    the key and value blocks being head `b`'s whole arrays — the body's stored block at `(0, r, d)` is the attention of the
    arrays at `(b, R, d)`. -/
theorem point_eq (q k v : S32x2048x64.Idx → EReal) (x0 : Vec Ideal S1x512x64 .bf16) (x1 x2 : Vec Ideal S1x2048x64 .bf16)
    (b : Fin 32) (R : Fin 2048) (r : Fin 512) (d : Fin 64)
    (h0 : ∀ d' : Fin 64, x0 (ix3 (0 : Fin 1) r d') = q (ix3 b R d'))
    (h1 : ∀ (kk : Fin 2048) (d' : Fin 64), x1 (ix3 (0 : Fin 1) kk d') = k (ix3 b kk d'))
    (h2 : ∀ kk : Fin 2048, x2 (ix3 (0 : Fin 1) kk d) = v (ix3 b kk d)) :
    k1_pay1 (F := Ideal) x0 x1 x2 (ix3 (0 : Fin 1) r d) = Cert.Spec.attn q k v (ix3 b R d) := by
  rw [pay_apply]
  unfold Cert.Spec.attn
  refine congrArg₂ Cert.Spec.softmaxDot (funext fun kk => ?_) (funext fun kk => h2 kk)
  refine congrArg₂ (· * ·) (Finset.sum_congr rfl fun d' _ => ?_) rfl
  rw [h0, h1]

/-! ## From blocks to the array -/

/-- The zero offsets of a whole-block access, as a constant function. -/
theorem hz3 : (![0, 0, 0] : Fin 3 → Nat) = fun _ => 0 := funext fun a => by fin_cases a <;> rfl

/-- The printed index maps, decided over the grid: point `t` is head `t / 4`, query block `t % 4`; the key and value
    windows stay on the head's whole array. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The grid has 32 × 4 points. -/
theorem N_eq : cfg1.N = 128 := by decide +kernel

/-- The query window's block at point `t`, at `(0, r, d)`, is the query array at head `t / 4`, row `512 (t % 4) + r`. -/
theorem iblk_q (c : Dev nD) (t : Fin cfg1.N) (r : Fin 512) (d : Fin 64) (z : S32x2048x64.Idx)
    (hz0 : (z 0).val = t.val / 4) (hz1 : (z 1).val = 512 * (t.val % 4) + r.val) (hz2 : (z 2).val = d.val) :
    (iblk1 V c 0 t : Vec Ideal S1x512x64 .bf16) (ix3 (0 : Fin 1) r d) = (V c main_v12 : S32x2048x64.Idx → EReal) z := by
  obtain ⟨e0, e1, e2, -⟩ := idx_facts t
  unfold iblk1
  rw [View.read_apply]
  show V c main_v12 _ = V c main_v12 z
  congr 1
  funext a
  apply Fin.ext
  match a with
  | ⟨0, _⟩ => show win1_0.index t (0 : Fin 3) * 1 + 1 * 0 = (z 0).val; rw [e0, hz0]; omega
  | ⟨1, _⟩ => show win1_0.index t (1 : Fin 3) * 512 + 1 * r.val = (z 1).val; rw [e1, hz1]; omega
  | ⟨2, _⟩ => show win1_0.index t (2 : Fin 3) * 64 + 1 * d.val = (z 2).val; rw [e2, hz2]; omega

/-- The key window's block at point `t` is head `t / 4` of the key array. -/
theorem iblk_k (c : Dev nD) (t : Fin cfg1.N) (kk : Fin 2048) (d : Fin 64) (z : S32x2048x64.Idx)
    (hz0 : (z 0).val = t.val / 4) (hz1 : (z 1).val = kk.val) (hz2 : (z 2).val = d.val) :
    (iblk1 V c 1 t : Vec Ideal S1x2048x64 .bf16) (ix3 (0 : Fin 1) kk d) = (V c main_v15 : S32x2048x64.Idx → EReal) z := by
  obtain ⟨-, -, -, e0, e1, e2, -⟩ := idx_facts t
  unfold iblk1
  rw [View.read_apply]
  show V c main_v15 _ = V c main_v15 z
  congr 1
  funext a
  apply Fin.ext
  match a with
  | ⟨0, _⟩ => show win1_1.index t (0 : Fin 3) * 1 + 1 * 0 = (z 0).val; rw [e0, hz0]; omega
  | ⟨1, _⟩ => show win1_1.index t (1 : Fin 3) * 2048 + 1 * kk.val = (z 1).val; rw [e1, hz1]; omega
  | ⟨2, _⟩ => show win1_1.index t (2 : Fin 3) * 64 + 1 * d.val = (z 2).val; rw [e2, hz2]; omega

/-- The value window's block at point `t` is head `t / 4` of the value array. -/
theorem iblk_v (c : Dev nD) (t : Fin cfg1.N) (kk : Fin 2048) (d : Fin 64) (z : S32x2048x64.Idx)
    (hz0 : (z 0).val = t.val / 4) (hz1 : (z 1).val = kk.val) (hz2 : (z 2).val = d.val) :
    (iblk1 V c 2 t : Vec Ideal S1x2048x64 .bf16) (ix3 (0 : Fin 1) kk d) = (V c main_v18 : S32x2048x64.Idx → EReal) z := by
  obtain ⟨-, -, -, -, -, -, e0, e1, e2, -⟩ := idx_facts t
  unfold iblk1
  rw [View.read_apply]
  show V c main_v18 _ = V c main_v18 z
  congr 1
  funext a
  apply Fin.ext
  match a with
  | ⟨0, _⟩ => show win1_2.index t (0 : Fin 3) * 1 + 1 * 0 = (z 0).val; rw [e0, hz0]; omega
  | ⟨1, _⟩ => show win1_2.index t (1 : Fin 3) * 2048 + 1 * kk.val = (z 1).val; rw [e1, hz1]; omega
  | ⟨2, _⟩ => show win1_2.index t (2 : Fin 3) * 64 + 1 * d.val = (z 2).val; rw [e2, hz2]; omega

/-- WHAT POINT `t` WRITES BACK is block `t` of the attention of the three arrays as the region finds them. -/
theorem flushed_eq (c : Dev nD) (t : Fin cfg1.N) :
    (dat1 (F := Ideal) V c).flushed 3 t
      = ((cfg1.win 3).blk t).view.read (Elt Ideal) (Cert.Spec.attn (V c main_v12) (V c main_v15) (V c main_v18)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x2048x64) hz3]
  funext j
  obtain ⟨-, -, -, -, -, -, -, -, -, e0, e1, e2⟩ := idx_facts t
  have hN : t.val < 128 := lt_of_lt_of_eq t.isLt N_eq
  have hj0 : (j 0).val < 1 := (j 0).isLt
  have hj1 : (j 1).val < 512 := (j 1).isLt
  have hj2 : (j 2).val < 64 := (j 2).isLt
  have hL : (win1 3).xinj (grid1.coords t) j = ix3 (0 : Fin 1) (⟨(j 1).val, hj1⟩ : Fin 512) (⟨(j 2).val, hj2⟩ : Fin 64) :=
    funext fun a => Fin.ext (by
      match a with
      | ⟨0, _⟩ => show (j 0).val = 0; omega
      | ⟨1, _⟩ => rfl
      | ⟨2, _⟩ => rfl)
  have hR : ((View.whole main_v19).slice ((win1 3).rect t)).emb j
      = ix3 (⟨t.val / 4, by omega⟩ : Fin 32) (⟨512 * (t.val % 4) + (j 1).val, by omega⟩ : Fin 2048) (⟨(j 2).val, hj2⟩ : Fin 64) :=
    funext fun a => Fin.ext (by
      match a with
      | ⟨0, _⟩ => show win1_3.index t (0 : Fin 3) * 1 + 1 * (j 0).val = t.val / 4; rw [e0]; omega
      | ⟨1, _⟩ => show win1_3.index t (1 : Fin 3) * 512 + 1 * (j 1).val = 512 * (t.val % 4) + (j 1).val; rw [e1]; omega
      | ⟨2, _⟩ => show win1_3.index t (2 : Fin 3) * 64 + 1 * (j 2).val = (j 2).val; rw [e2]; omega)
  show k1_pay1 (F := Ideal) (iblk1 V c 0 t) (iblk1 V c 1 t) (iblk1 V c 2 t) ((win1 3).xinj (grid1.coords t) j)
    = Cert.Spec.attn (V c main_v12) (V c main_v15) (V c main_v18) (((View.whole main_v19).slice ((win1 3).rect t)).emb j)
  rw [hL, hR]
  exact point_eq (V c main_v12) (V c main_v15) (V c main_v18) (iblk1 V c 0 t) (iblk1 V c 1 t) (iblk1 V c 2 t) _ _ _ _
    (fun d' => iblk_q V c t _ d' _ rfl rfl rfl) (fun kk d' => iblk_k V c t kk d' _ rfl rfl rfl) (fun kk => iblk_v V c t kk _ _ rfl rfl rfl)

/-- An index of the array is in point `t`'s block iff each coordinate is in the block's range on its axis. -/
theorem mem_blk (t : Fin cfg1.N) (i : S32x2048x64.Idx) :
    i ∈ ((cfg1.win 3).blk t).view.set
      ↔ ∀ a : Fin 3, win1_3.index t a * S1x512x64.size a ≤ (i a).val ∧ (i a).val < win1_3.index t a * S1x512x64.size a + S1x512x64.size a := by
  show i ∈ ((View.whole main_v19).slice (win1_3.rect t)).set ↔ _
  rw [View.set_slice_whole, Rect.mem_set_unit]
  exact Iff.rfl

/-- Every index of the output array is in some point's block: head `b`, row `s` is in the block of point `4 b + s / 512`. -/
theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ : ∃ t : Fin cfg1.N, t.val = 4 * (i 0).val + (i 1).val / 512 :=
    ⟨⟨4 * (i 0).val + (i 1).val / 512, by rw [N_eq]; omega⟩, rfl⟩
  obtain ⟨-, -, -, -, -, -, -, -, -, e0, e1, e2⟩ := idx_facts t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    rw [e0]; omega
  | ⟨1, _⟩ =>
    show win1_3.index t (1 : Fin 3) * 512 ≤ (i 1).val ∧ (i 1).val < win1_3.index t (1 : Fin 3) * 512 + 512
    rw [e1]; omega
  | ⟨2, _⟩ =>
    show win1_3.index t (2 : Fin 3) * 64 ≤ (i 2).val ∧ (i 2).val < win1_3.index t (2 : Fin 3) * 64 + 64
    rw [e2]; omega

/-- After region 1 its output array is the attention of its three input arrays, whatever they held at entry. -/
theorem final (c : Dev nD) :
    (dat1 (F := Ideal) V c).arrAt 3 cfg1.N = Cert.Spec.attn (V c main_v12) (V c main_v15) (V c main_v18) :=
  (dat1 (F := Ideal) V c).arrAt_eq_of_cover 3 (Cert.Spec.attn (V c main_v12) (V c main_v15) (V c main_v18))
    (fun t _ => flushed_eq V c t) cover

end Cert.KernelIdeal.Region1

end
-- ==== Proof.Region2.lean ====
/-
  Region 2 of the kernel program read as a value.
-/
import proofs.«148321_j71133248356497_1_alg».proof.Proof.Gen.KernelIdeal.Frame
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The dense layer's dimension numbers: the left operand's row is the output's row, -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- its column is the contracted coordinate; -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's row is the contracted coordinate, -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- and its column is the output's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product of two blocks at an entry: the row of the left against the column of the right. -/
theorem matmul_entry (x0 : FVec Ideal S512x1024 .bf16) (x1 : FVec Ideal S1024x1024 .bf16) (p : Fin 512) (q : Fin 1024) :
    matmul dot_S512x1024_S1024x1024_S512x1024_1_0_0_1_n_n none x0 x1 (constant (F := Ideal) S512x1024 .f32 0x00000000#32) (ix2 p q)
      = ∑ k : Fin 1024, x0 (ix2 p k) * x1 (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The body's payload at an entry: that product plus the bias row's entry of the column. -/
theorem pay_entry (x0 : Vec Ideal S512x1024 .bf16) (x1 : Vec Ideal S1024x1024 .bf16) (x2 : Vec Ideal S1x1024 .f32) (p : Fin 512) (q : Fin 1024) :
    k2_pay1 (F := Ideal) x0 x1 x2 (ix2 p q) = (∑ k : Fin 1024, x0 (ix2 p k) * x1 (ix2 k q)) + x2 (ix2 (0 : Fin 1) q) := by
  unfold k2_pay1
  simp only [shapeCast_self]
  rw [addf_apply, matmul_entry]
  refine congrArg (_ + ·) ?_
  refine broadcastTo_apply _ _ _ _ fun a => ?_
  match a with
  | ⟨0, _⟩ => show (0 : Nat) = if (1 : Nat) = 1 then 0 else _; rw [if_pos rfl]
  | ⟨1, _⟩ => show q.val = if (1024 : Nat) = 1 then 0 else q.val; rw [if_neg (by decide)]

/-- The zero offsets. -/
theorem hz : (![0, 0] : Fin 2 → Nat) = fun _ => 0 := funext fun a => by
  match a with
  | ⟨0, _⟩ => rfl
  | ⟨1, _⟩ => rfl

/-- The block indices over the grid: the left operand's and the output's row block is the grid point, every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at grid point `t` is rows `512 t … 512 t + 511` of its array. -/
theorem blk0_apply (c : Dev nD) (t : Fin cfg2.N) (x : S512x1024.Idx) (i : S4096x1024.Idx)
    (h0 : (i 0).val = 512 * t.val + (x 0).val) (h1 : (i 1).val = (x 1).val) :
    (iblk2 V c 0 t : Vec Ideal S512x1024 .bf16) x = (V c main_v22 : S4096x1024.Idx → EReal) i := by
  obtain ⟨e0, e1, -⟩ := idx_facts t
  unfold iblk2
  rw [View.read_apply]
  show V c main_v22 _ = V c main_v22 _
  congr 1
  funext a
  apply Fin.ext
  match a with
  | ⟨0, _⟩ => show win2_0.index t (0 : Fin 2) * 512 + 1 * (x 0).val = (i 0).val; rw [e0, h0]; omega
  | ⟨1, _⟩ => show win2_0.index t (1 : Fin 2) * 1024 + 1 * (x 1).val = (i 1).val; rw [e1, h1]; omega

/-- The right operand's block is its whole array at every grid point. -/
theorem blk1_apply (c : Dev nD) (t : Fin cfg2.N) (x : S1024x1024.Idx) (i : S1024x1024.Idx)
    (h0 : (i 0).val = (x 0).val) (h1 : (i 1).val = (x 1).val) :
    (iblk2 V c 1 t : Vec Ideal S1024x1024 .bf16) x = (V c main_v3 : S1024x1024.Idx → EReal) i := by
  obtain ⟨-, -, e0, e1, -⟩ := idx_facts t
  unfold iblk2
  rw [View.read_apply]
  show V c main_v3 _ = V c main_v3 _
  congr 1
  funext a
  apply Fin.ext
  match a with
  | ⟨0, _⟩ => show win2_1.index t (0 : Fin 2) * 1024 + 1 * (x 0).val = (i 0).val; rw [e0, h0]; omega
  | ⟨1, _⟩ => show win2_1.index t (1 : Fin 2) * 1024 + 1 * (x 1).val = (i 1).val; rw [e1, h1]; omega

/-- The bias row's block is its whole array at every grid point. -/
theorem blk2_apply (c : Dev nD) (t : Fin cfg2.N) (x : S1x1024.Idx) (i : S1x1024.Idx)
    (h0 : (i 0).val = (x 0).val) (h1 : (i 1).val = (x 1).val) :
    (iblk2 V c 2 t : Vec Ideal S1x1024 .f32) x = (V c main_v23 : S1x1024.Idx → EReal) i := by
  obtain ⟨-, -, -, -, e0, e1, -⟩ := idx_facts t
  unfold iblk2
  rw [View.read_apply]
  show V c main_v23 _ = V c main_v23 _
  congr 1
  funext a
  apply Fin.ext
  match a with
  | ⟨0, _⟩ => show win2_2.index t (0 : Fin 2) * 1 + 1 * (x 0).val = (i 0).val; rw [e0, h0]; omega
  | ⟨1, _⟩ => show win2_2.index t (1 : Fin 2) * 1024 + 1 * (x 1).val = (i 1).val; rw [e1, h1]; omega

/-- A row of a left block against a column of a right block plus a bias entry is the dense layer at an entry `i` of the
    whole arrays, once the blocks' entries are the arrays' at row `i 0` and column `i 1`. -/
theorem linear_of_blocks (a : Vec Ideal S4096x1024 .bf16) (w : Vec Ideal S1024x1024 .bf16) (b : Vec Ideal S1x1024 .f32)
    (x0 : Vec Ideal S512x1024 .bf16) (x1 : Vec Ideal S1024x1024 .bf16) (x2 : Vec Ideal S1x1024 .f32)
    (p : Fin 512) (q : Fin 1024) (i : S4096x1024.Idx)
    (h0 : ∀ k : Fin 1024, x0 (ix2 p k) = a (ix2 (i 0) k))
    (h1 : ∀ k : Fin 1024, x1 (ix2 k q) = w (ix2 k (i 1)))
    (h2 : x2 (ix2 (0 : Fin 1) q) = b (ix2 (0 : Fin 1) (i 1))) :
    (∑ k : Fin 1024, x0 (ix2 p k) * x1 (ix2 k q)) + x2 (ix2 (0 : Fin 1) q) = Cert.Spec.linear a w b i := by
  unfold Cert.Spec.linear
  rw [h2]
  exact congrArg (· + _) (Finset.sum_congr rfl fun k _ => by rw [h0 k, h1 k])

/-- What grid point `t` writes back is block `t` of the dense layer of the arrays as the region finds them. -/
theorem flushed_eq (c : Dev nD) (t : Fin cfg2.N) :
    (dat2 (F := Ideal) V c).flushed 3 t
      = ((cfg2.win 3).blk t).view.read (Elt Ideal) (Cert.Spec.linear (V c main_v22) (V c main_v3) (V c main_v23)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨-, -, -, -, -, -, e0, e1⟩ := idx_facts t
  funext j
  obtain ⟨p, q, rfl⟩ : ∃ (p : Fin 512) (q : Fin 1024), j = ix2 p q := ⟨j 0, j 1, eq_ix2 j⟩
  refine (pay_entry (iblk2 V c 0 t) (iblk2 V c 1 t) (iblk2 V c 2 t) p q).trans ?_
  have r0 : ((((cfg2.win 3).blk t).view.emb (ix2 p q)) 0).val = 512 * t.val + p.val := by
    show win2_3.index t (0 : Fin 2) * 512 + 1 * p.val = _; rw [e0]; omega
  have r1 : ((((cfg2.win 3).blk t).view.emb (ix2 p q)) 1).val = q.val := by
    show win2_3.index t (1 : Fin 2) * 1024 + 1 * q.val = _; rw [e1]; omega
  refine linear_of_blocks (V c main_v22) (V c main_v3) (V c main_v23) (iblk2 V c 0 t) (iblk2 V c 1 t) (iblk2 V c 2 t) p q
    (((cfg2.win 3).blk t).view.emb (ix2 p q)) (fun k => ?_) (fun k => ?_) ?_
  · exact blk0_apply V c t (ix2 p k) _ r0 rfl
  · exact blk1_apply V c t (ix2 k q) _ rfl r1
  · exact blk2_apply V c t (ix2 (0 : Fin 1) q) _ rfl r1

/-- An entry of the output array is in grid point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v24).slice (win2_3.rect t)).set ↔ _
  rw [View.set_slice_whole, Rect.mem_set_unit]
  exact Iff.rfl

/-- Every entry of the output array is written back: row `r` by grid point `r / 512`. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 8 := N_2
  have ht : (i 0).val / 512 < cfg2.N := by show (i 0).val / 512 < grid2.N; omega
  obtain ⟨-, -, -, -, -, -, e0, e1⟩ := idx_facts ⟨(i 0).val / 512, ht⟩
  refine ⟨⟨(i 0).val / 512, ht⟩, flush2_3 _, ?_⟩
  rw [mem_blk]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win2_3.index ⟨(i 0).val / 512, ht⟩ (1 : Fin 2) * 1024 ≤ (i 1).val ∧ (i 1).val < win2_3.index ⟨(i 0).val / 512, ht⟩ (1 : Fin 2) * 1024 + 1024
    rw [e1]; omega

/-- After region 2 its output array is the dense layer of its three input arrays, whatever they held at entry. -/
theorem final (c : Dev nD) :
    (dat2 (F := Ideal) V c).arrAt 3 cfg2.N = Cert.Spec.linear (V c main_v22) (V c main_v3) (V c main_v23) := by
  exact (dat2 (F := Ideal) V c).arrAt_eq_of_cover 3 (Cert.Spec.linear (V c main_v22) (V c main_v3) (V c main_v23))
    (fun t _ => flushed_eq V c t) cover

end Cert.KernelIdeal.Region2

end
-- ==== Proof.KernelValue.lean ====
/-
  The kernel program's result as one term over the three stage functions: the flattened activations go through the
  fused projection; its three column thirds, cut into 16 heads of 64 features and stacked as 32 heads, go through
  attention; the heads are unstacked and laid back side by side, and go through the output projection. The host
  operations between the regions are layout changes only (and format changes, the identity on the extended reals).
-/
import proofs.«148321_j71133248356497_1_alg».proof.Proof.Gen.KernelIdeal.Frame
import proofs.«148321_j71133248356497_1_alg».proof.Proof.Spec
import proofs.«148321_j71133248356497_1_alg».proof.Proof.Region0
import proofs.«148321_j71133248356497_1_alg».proof.Proof.Region1
import proofs.«148321_j71133248356497_1_alg».proof.Proof.Region2
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- One column third of the projected activations as 32 stacked heads: cut at `off`, split the 1024 columns into 16 heads
    of 64, bring the head axis in front of the position axis, and stack batch and head. -/
def heads (off : Fin 3 → Nat) (h : S2x2048x3072.Slices off S2x2048x1024) (qkv : S2x2048x3072.Idx → EReal) :
    S32x2048x64.Idx → EReal :=
  shapeCast S32x2048x64 (transpose S2x16x2048x64 [0, 2, 1, 3]
    (shapeCast S2x2048x16x64 (extractStridedSlice S2x2048x1024 off qkv h) shapeCasts_S2x2048x1024_S2x2048x16x64)
    transposes_S2x2048x16x64_S2x16x2048x64_0_2_1_3) shapeCasts_S2x16x2048x64_S32x2048x64

/-- The projected activations `x·W_qkv + b_qkv` in three axes. -/
def qkvOf (x : S2x2048x1024.Idx → EReal) (wqkv : S1024x3072.Idx → EReal) (bqkv : S3072.Idx → EReal) : S2x2048x3072.Idx → EReal :=
  shapeCast S2x2048x3072 (Cert.Spec.linear (shapeCast S4096x1024 x shapeCasts_S2x2048x1024_S4096x1024) wqkv
    (shapeCast S1x3072 bqkv shapeCasts_S3072_S1x3072)) shapeCasts_S4096x3072_S2x2048x3072

/-- The attention output laid out as [2, 2048, 16, 64]: the stacked heads unstacked, the head axis behind the position axis. -/
def avOf (qkv : S2x2048x3072.Idx → EReal) : S2x2048x16x64.Idx → EReal :=
  transpose S2x2048x16x64 [0, 2, 1, 3] (shapeCast S2x16x2048x64
    (Cert.Spec.attn (heads ![0, 0, 0] slices_S2x2048x3072_S2x2048x1024_0_0_0 qkv)
      (heads ![0, 0, 1024] slices_S2x2048x3072_S2x2048x1024_0_0_1024 qkv)
      (heads ![0, 0, 2048] slices_S2x2048x3072_S2x2048x1024_0_0_2048 qkv))
    shapeCasts_S32x2048x64_S2x16x2048x64) transposes_S2x16x2048x64_S2x2048x16x64_0_2_1_3

/-- The whole layer. -/
def kernelOut (x : S2x2048x1024.Idx → EReal) (wqkv : S1024x3072.Idx → EReal) (bqkv : S3072.Idx → EReal)
    (wo : S1024x1024.Idx → EReal) (bo : S1024.Idx → EReal) : S2x2048x1024.Idx → EReal :=
  shapeCast S2x2048x1024 (Cert.Spec.linear (shapeCast S4096x1024 (avOf (qkvOf x wqkv bqkv)) shapeCasts_S2x2048x16x64_S4096x1024) wo
    (shapeCast S1x1024 bo shapeCasts_S1024_S1x1024)) shapeCasts_S4096x1024_S2x2048x1024

/-! ## The host stretches, each over any contents `X` of the buffers it starts from -/

section Stretches
variable (X : Valuation τ sig (Elt Ideal))

theorem ops0_v1 : after (hostOps0 (F := Ideal)) X (Proc.devRef .tc main_v1)
    = shapeCast S4096x1024 (X (Proc.devRef .tc main_arg0)) shapeCasts_S2x2048x1024_S4096x1024 := by
  after_results; rfl
theorem ops0_v2 : after (hostOps0 (F := Ideal)) X (Proc.devRef .tc main_v2) = X (Proc.devRef .tc main_arg1) := by
  after_results; rfl
theorem ops0_v3 : after (hostOps0 (F := Ideal)) X (Proc.devRef .tc main_v3) = X (Proc.devRef .tc main_arg3) := by
  after_results; rfl
theorem ops0_v4 : after (hostOps0 (F := Ideal)) X (Proc.devRef .tc main_v4)
    = shapeCast S1x3072 (X (Proc.devRef .tc main_arg2)) shapeCasts_S3072_S1x3072 := by
  after_results; rfl
theorem ops0_arg4 : after (hostOps0 (F := Ideal)) X (Proc.devRef .tc main_arg4) = X (Proc.devRef .tc main_arg4) := by
  after_results

theorem ops1_v12 : after (hostOps1 (F := Ideal)) X (Proc.devRef .tc main_v12)
    = heads ![0, 0, 0] slices_S2x2048x3072_S2x2048x1024_0_0_0 (shapeCast S2x2048x3072 (X (Proc.devRef .tc main_v5)) shapeCasts_S4096x3072_S2x2048x3072) := by
  after_results; rfl
theorem ops1_v15 : after (hostOps1 (F := Ideal)) X (Proc.devRef .tc main_v15)
    = heads ![0, 0, 1024] slices_S2x2048x3072_S2x2048x1024_0_0_1024 (shapeCast S2x2048x3072 (X (Proc.devRef .tc main_v5)) shapeCasts_S4096x3072_S2x2048x3072) := by
  after_results; rfl
theorem ops1_v18 : after (hostOps1 (F := Ideal)) X (Proc.devRef .tc main_v18)
    = heads ![0, 0, 2048] slices_S2x2048x3072_S2x2048x1024_0_0_2048 (shapeCast S2x2048x3072 (X (Proc.devRef .tc main_v5)) shapeCasts_S4096x3072_S2x2048x3072) := by
  after_results; rfl
theorem ops1_v3 : after (hostOps1 (F := Ideal)) X (Proc.devRef .tc main_v3) = X (Proc.devRef .tc main_v3) := by
  after_results
theorem ops1_arg4 : after (hostOps1 (F := Ideal)) X (Proc.devRef .tc main_arg4) = X (Proc.devRef .tc main_arg4) := by
  after_results

theorem ops2_v22 : after (hostOps2 (F := Ideal)) X (Proc.devRef .tc main_v22)
    = shapeCast S4096x1024 (transpose S2x2048x16x64 [0, 2, 1, 3] (shapeCast S2x16x2048x64 (X (Proc.devRef .tc main_v19)) shapeCasts_S32x2048x64_S2x16x2048x64)
        transposes_S2x16x2048x64_S2x2048x16x64_0_2_1_3) shapeCasts_S2x2048x16x64_S4096x1024 := by
  after_results; rfl
theorem ops2_v23 : after (hostOps2 (F := Ideal)) X (Proc.devRef .tc main_v23)
    = shapeCast S1x1024 (X (Proc.devRef .tc main_arg4)) shapeCasts_S1024_S1x1024 := by
  after_results; rfl
theorem ops2_v3 : after (hostOps2 (F := Ideal)) X (Proc.devRef .tc main_v3) = X (Proc.devRef .tc main_v3) := by
  after_results

theorem ops3_v25 : after (hostOps3 (F := Ideal)) X (Proc.devRef .tc main_v25)
    = shapeCast S2x2048x1024 (X (Proc.devRef .tc main_v24)) shapeCasts_S4096x1024_S2x2048x1024 := by
  after_results; rfl

end Stretches

/-! ## The run's boundaries, walked from the launch to the return -/

variable (m : (ℓ : Loc nD τ sig) → Buf (Elt Ideal) ℓ) (ρ : Dev nD → PrngReg)

/-- At region 0's exit its output array is the fused projection of the flattened activations. -/
theorem W2_v5 (c : Dev nD) : W2 m ρ c (Proc.devRef .tc main_v5)
    = Cert.Spec.linear (shapeCast S4096x1024 (m ((c : Thread nD τ).loc main_arg0)) shapeCasts_S2x2048x1024_S4096x1024)
        (m ((c : Thread nD τ).loc main_arg1)) (shapeCast S1x3072 (m ((c : Thread nD τ).loc main_arg2)) shapeCasts_S3072_S1x3072) := by
  refine (W2_arr m ρ c 3).trans ((Cert.KernelIdeal.Region0.final (V1 m ρ) c).trans ?_)
  show Cert.Spec.linear (W1 m ρ c (Proc.devRef .tc main_v1)) (W1 m ρ c (Proc.devRef .tc main_v2)) (W1 m ρ c (Proc.devRef .tc main_v4)) = _
  rw [show W1 m ρ c = after hostOps0 (W0 m ρ c) from rfl, ops0_v1, ops0_v2, ops0_v4]

/-- The weights of the output projection and its bias reach region 2 as launched. -/
theorem W5_v3 (c : Dev nD) : W5 m ρ c (Proc.devRef .tc main_v3) = m ((c : Thread nD τ).loc main_arg3) := by
  rw [show W5 m ρ c = after hostOps2 (W4 m ρ c) from rfl, ops2_v3, W4_of_ne m ρ c main_v3 (by decide),
    show W3 m ρ c = after hostOps1 (W2 m ρ c) from rfl, ops1_v3, W2_of_ne m ρ c main_v3 (by decide),
    show W1 m ρ c = after hostOps0 (W0 m ρ c) from rfl, ops0_v3]

theorem W4_arg4 (c : Dev nD) : W4 m ρ c (Proc.devRef .tc main_arg4) = m ((c : Thread nD τ).loc main_arg4) := by
  rw [W4_of_ne m ρ c main_arg4 (by decide),
    show W3 m ρ c = after hostOps1 (W2 m ρ c) from rfl, ops1_arg4, W2_of_ne m ρ c main_arg4 (by decide),
    show W1 m ρ c = after hostOps0 (W0 m ρ c) from rfl, ops0_arg4]

/-- At region 1's exit its output array is the attention of the three stacks of heads. -/
theorem W4_v19 (c : Dev nD) : W4 m ρ c (Proc.devRef .tc main_v19)
    = Cert.Spec.attn (heads ![0, 0, 0] slices_S2x2048x3072_S2x2048x1024_0_0_0 (qkvOf (m ((c : Thread nD τ).loc main_arg0)) (m ((c : Thread nD τ).loc main_arg1)) (m ((c : Thread nD τ).loc main_arg2))))
        (heads ![0, 0, 1024] slices_S2x2048x3072_S2x2048x1024_0_0_1024 (qkvOf (m ((c : Thread nD τ).loc main_arg0)) (m ((c : Thread nD τ).loc main_arg1)) (m ((c : Thread nD τ).loc main_arg2))))
        (heads ![0, 0, 2048] slices_S2x2048x3072_S2x2048x1024_0_0_2048 (qkvOf (m ((c : Thread nD τ).loc main_arg0)) (m ((c : Thread nD τ).loc main_arg1)) (m ((c : Thread nD τ).loc main_arg2)))) := by
  refine (W4_arr m ρ c 3).trans ((Cert.KernelIdeal.Region1.final (V3 m ρ) c).trans ?_)
  show Cert.Spec.attn (W3 m ρ c (Proc.devRef .tc main_v12)) (W3 m ρ c (Proc.devRef .tc main_v15)) (W3 m ρ c (Proc.devRef .tc main_v18)) = _
  rw [show W3 m ρ c = after hostOps1 (W2 m ρ c) from rfl, ops1_v12, ops1_v15, ops1_v18, W2_v5]
  rfl

/-- The result buffer at the return is the whole layer of the arguments as launched. -/
theorem W7_v25 (c : Dev nD) : W7 m ρ c (Proc.devRef .tc main_v25)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) := by
  rw [show W7 m ρ c = after hostOps3 (W6 m ρ c) from rfl, ops3_v25]
  refine congrArg (fun z => shapeCast S2x2048x1024 z shapeCasts_S4096x1024_S2x2048x1024) ?_
  refine (W6_arr m ρ c 3).trans ((Cert.KernelIdeal.Region2.final (V5 m ρ) c).trans ?_)
  show Cert.Spec.linear (W5 m ρ c (Proc.devRef .tc main_v22)) (W5 m ρ c (Proc.devRef .tc main_v3)) (W5 m ρ c (Proc.devRef .tc main_v23)) = _
  rw [W5_v3, show W5 m ρ c = after hostOps2 (W4 m ρ c) from rfl, ops2_v22, ops2_v23, W4_v19, W4_arg4]
  rfl

end Cert.KernelIdeal.Whole

end
-- ==== Proof.BridgeQkv.lean ====
/-
  The fused projection: the dense layer over the 4096 flattened rows, folded back to [2, 2048, 3072], is the reference's einsum plus its broadcast bias.
-/
import proofs.«148321_j71133248356497_1_alg».proof.Proof.Gen.ReferenceIdeal.Read
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.Qkv

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- The flattened activations at row `b * 2048 + s` are the activations at `(b, s)`. -/
private theorem flat_x0 {α : Type} (x : S2x2048x1024.Idx → α) (h1 : S2x2048x1024.ShapeCasts (⟨2, ![4096, 1024]⟩ : Shape))
    (b : Fin 2) (s : Fin 2048) (k : Fin 1024) (r : Fin 4096) (hr : r.val = b.val * 2048 + s.val) :
    shapeCast (⟨2, ![4096, 1024]⟩ : Shape) x h1 (ix2 r k) = x (ix3 b s k) :=
  shapeCast_apply x h1 _ _ (by
    rw [Shape.rowMajor_val_three, Shape.rowMajor_val_two]
    show (b.val * 2048 + s.val) * 1024 + k.val = r.val * 1024 + k.val
    rw [hr])

/-- The bias as a one-row matrix is the bias. -/
private theorem flat_x2 {α : Type} (x : S3072.Idx → α) (h2 : S3072.ShapeCasts (⟨2, ![1, 3072]⟩ : Shape))
    (u : Fin 1) (n : Fin 3072) :
    shapeCast (⟨2, ![1, 3072]⟩ : Shape) x h2 (ix2 u n) = x (ix1 n) :=
  shapeCast_a_1a_apply x h2 u n

/-- The result folded back to three axes at `(b, s, n)` is the matrix at row `b * 2048 + s`. -/
private theorem fold_out {α : Type} (y : (⟨2, ![4096, 3072]⟩ : Shape).Idx → α) (h3 : (⟨2, ![4096, 3072]⟩ : Shape).ShapeCasts S2x2048x3072)
    (b : Fin 2) (s : Fin 2048) (n : Fin 3072) (r : Fin 4096) (hr : r.val = b.val * 2048 + s.val) :
    shapeCast S2x2048x3072 y h3 (ix3 b s n) = y (ix2 r n) :=
  shapeCast_apply y h3 _ _ (by
    rw [Shape.rowMajor_val_three, Shape.rowMajor_val_two]
    show r.val * 3072 + n.val = (b.val * 2048 + s.val) * 3072 + n.val
    rw [hr])

/-- The dense layer of the flattened activations, read back in three axes, is the reference's `qkv`. -/
theorem qkv_eq (x0 : (⟨S2x2048x1024, .f32⟩ : BufTy).Contents (Elt Ideal)) (x1 : (⟨S1024x3072, .f32⟩ : BufTy).Contents (Elt Ideal))
    (x2 : (⟨S3072, .f32⟩ : BufTy).Contents (Elt Ideal))
    (h1 : S2x2048x1024.ShapeCasts (⟨2, ![4096, 1024]⟩ : Shape)) (h2 : S3072.ShapeCasts (⟨2, ![1, 3072]⟩ : Shape))
    (h3 : (⟨2, ![4096, 3072]⟩ : Shape).ShapeCasts S2x2048x3072) :
    shapeCast S2x2048x3072 (Cert.Spec.linear (shapeCast (⟨2, ![4096, 1024]⟩ : Shape) x0 h1) x1 (shapeCast (⟨2, ![1, 3072]⟩ : Shape) x2 h2)) h3
      = val_main_v3 (F := Ideal) x0 x1 x2 := by
  funext i
  obtain ⟨b, s, n, rfl⟩ : ∃ b s n, i = ix3 b s n := ⟨i 0, i 1, i 2, eq_ix3 i⟩
  have hb : b.val < 2 := b.isLt
  have hs : s.val < 2048 := s.isLt
  rw [fold_out _ h3 b s n ⟨b.val * 2048 + s.val, by omega⟩ rfl]
  have el : ∀ k : Fin 1024, lidx_main_v0 (ix3 b s n) k = ix3 b s k := fun k => funext fun a => Fin.ext (by
    match a with | ⟨0, _⟩ => rfl | ⟨1, _⟩ => rfl | ⟨2, _⟩ => rfl)
  have er : ∀ k : Fin 1024, ridx_main_v0 (ix3 b s n) k = ix2 k n := fun k => funext fun a => Fin.ext (by
    match a with | ⟨0, _⟩ => rfl | ⟨1, _⟩ => rfl)
  have eb : idx_main_v1 (idx_main_v2 (ix3 b s n)) = ix1 n := funext fun a => Fin.ext (by
    match a with | ⟨0, _⟩ => rfl)
  rw [val_main_v3_apply, val_main_v0_apply, val_main_v2_apply, val_main_v1_apply, eb]
  simp only [el, er]
  show (∑ k : Fin 1024, shapeCast (⟨2, ![4096, 1024]⟩ : Shape) x0 h1 (ix2 ⟨b.val * 2048 + s.val, by omega⟩ k) * x1 (ix2 k n))
      + shapeCast (⟨2, ![1, 3072]⟩ : Shape) x2 h2 (ix2 (0 : Fin 1) n) = _
  rw [flat_x2 x2 h2 0 n]
  simp only [flat_x0 x0 h1 b s _ ⟨b.val * 2048 + s.val, by omega⟩ rfl]
  rfl

end Cert.Bridge.Qkv

end
-- ==== Proof.BridgeAttn.lean ====
/-
  The attention core: the 32 stacked heads' attention, unstacked to [2, 16, 2048, 64] and moved to [2, 2048, 16, 64], is the reference's softmax-weighted sum over keys.
-/
import proofs.«148321_j71133248356497_1_alg».proof.Proof.Gen.ReferenceIdeal.Read
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.Attn

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## The left-hand side's layout operations at an index -/

/-- The four-axis array read as 32 stacked heads: head `b * 16 + h` of the stack is head `(b, h)`. -/
private theorem stack_apply {α : Type} (x : S2x16x2048x64.Idx → α) (h1 : S2x16x2048x64.ShapeCasts (⟨3, ![32, 2048, 64]⟩ : Shape))
    (b : Fin 2) (h : Fin 16) (s : Fin 2048) (d : Fin 64) (n : Fin 32) (hn : n.val = b.val * 16 + h.val) :
    shapeCast (⟨3, ![32, 2048, 64]⟩ : Shape) x h1 (ix3 n s d) = x (ix4 b h s d) :=
  shapeCast_apply x h1 _ _ (by
    rw [Shape.rowMajor_val_four, Shape.rowMajor_val_three]
    show ((b.val * 16 + h.val) * 2048 + s.val) * 64 + d.val = (n.val * 2048 + s.val) * 64 + d.val
    rw [hn])

/-- The stack of 32 heads read back in four axes: `(b, h)` is head `b * 16 + h` of the stack. -/
private theorem unstack_apply {α : Type} (y : (⟨3, ![32, 2048, 64]⟩ : Shape).Idx → α)
    (h2 : (⟨3, ![32, 2048, 64]⟩ : Shape).ShapeCasts S2x16x2048x64)
    (b : Fin 2) (h : Fin 16) (s : Fin 2048) (d : Fin 64) (n : Fin 32) (hn : n.val = b.val * 16 + h.val) :
    shapeCast S2x16x2048x64 y h2 (ix4 b h s d) = y (ix3 n s d) :=
  shapeCast_apply y h2 _ _ (by
    rw [Shape.rowMajor_val_three, Shape.rowMajor_val_four]
    show (n.val * 2048 + s.val) * 64 + d.val = ((b.val * 16 + h.val) * 2048 + s.val) * 64 + d.val
    rw [hn])

/-- Moving the head axis behind the position axis: the result at `(b, s, h, d)` is the operand at `(b, h, s, d)`. -/
private theorem swap_apply {α : Type} (y : S2x16x2048x64.Idx → α) (h3 : S2x16x2048x64.Transposes [0, 2, 1, 3] S2x2048x16x64)
    (b : Fin 2) (s : Fin 2048) (h : Fin 16) (d : Fin 64) :
    transpose S2x2048x16x64 [0, 2, 1, 3] y h3 (ix4 b s h d) = y (ix4 b h s d) :=
  transpose_apply [0, 2, 1, 3] y h3 _ _ (fun a => match a with
    | ⟨0, _⟩ => rfl
    | ⟨1, _⟩ => rfl
    | ⟨2, _⟩ => rfl
    | ⟨3, _⟩ => rfl)

/-- The score of query `q` against key `k` in head `(b, h)`: their feature product times 1/8. -/
private def score (Q K : S2x16x2048x64.Idx → EReal) (b : Fin 2) (h : Fin 16) (q : Fin 2048) : Fin 2048 → EReal :=
  fun k => (∑ d : Fin 64, Q (ix4 b h q d) * K (ix4 b h k d)) * Cert.Spec.eighth

/-- The left-hand side at `(b, s, h, d)`: one softmax row of head `(b, h)` against feature `d` of the values. -/
private theorem lhs_apply (Q K V : S2x16x2048x64.Idx → EReal)
    (h1 : S2x16x2048x64.ShapeCasts (⟨3, ![32, 2048, 64]⟩ : Shape)) (h2 : (⟨3, ![32, 2048, 64]⟩ : Shape).ShapeCasts S2x16x2048x64)
    (h3 : S2x16x2048x64.Transposes [0, 2, 1, 3] S2x2048x16x64) (b : Fin 2) (s : Fin 2048) (h : Fin 16) (d : Fin 64) :
    transpose S2x2048x16x64 [0, 2, 1, 3]
        (shapeCast S2x16x2048x64
          (Cert.Spec.attn (shapeCast (⟨3, ![32, 2048, 64]⟩ : Shape) Q h1) (shapeCast (⟨3, ![32, 2048, 64]⟩ : Shape) K h1)
            (shapeCast (⟨3, ![32, 2048, 64]⟩ : Shape) V h1)) h2) h3 (ix4 b s h d)
      = Cert.Spec.softmaxDot (score Q K b h s) (fun k : Fin 2048 => V (ix4 b h k d)) := by
  have hb : b.val < 2 := b.isLt
  have hh : h.val < 16 := h.isLt
  rw [swap_apply _ h3 b s h d, unstack_apply _ h2 b h s d ⟨b.val * 16 + h.val, by omega⟩ rfl]
  show Cert.Spec.softmaxDot
      (fun kk : Fin 2048 => (∑ d' : Fin 64,
        shapeCast (⟨3, ![32, 2048, 64]⟩ : Shape) Q h1 (ix3 (⟨b.val * 16 + h.val, by omega⟩ : Fin 32) s d')
          * shapeCast (⟨3, ![32, 2048, 64]⟩ : Shape) K h1 (ix3 (⟨b.val * 16 + h.val, by omega⟩ : Fin 32) kk d')) * Cert.Spec.eighth)
      (fun kk : Fin 2048 => shapeCast (⟨3, ![32, 2048, 64]⟩ : Shape) V h1 (ix3 (⟨b.val * 16 + h.val, by omega⟩ : Fin 32) kk d)) = _
  simp only [stack_apply _ h1 b h _ _ ⟨b.val * 16 + h.val, by omega⟩ rfl]
  rfl

/-! ## The reference's stages at an index -/

/-- The reference's scaled scores: the feature product of query `q` and key `k`, the quotient by `√64` written as the product with 1/8. -/
private theorem scores_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (q k : Fin 2048) :
    val_main_v16 (F := Ideal) x0 x1 x2 (ix4 b h q k)
      = score (val_main_v8 (F := Ideal) x0 x1 x2) (val_main_v10 (F := Ideal) x0 x1 x2) b h q k := by
  have el : ∀ d : Fin 64, lidx_main_v13 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v13 (ix4 b h q k) d = ix4 b h k d := fun d => funext fun a => Fin.ext (by
    match a with | ⟨0, _⟩ => rfl | ⟨1, _⟩ => rfl | ⟨2, _⟩ => rfl | ⟨3, _⟩ => rfl)
  rw [val_main_v16_apply, val_main_v13_apply, val_main_v15_apply, val_main_v14_apply, val_main_cst_apply]
  simp only [el, er, Ideal.hostDivf_def, Ideal.hostUnary_sqrt_def, Ideal.ofBits_def]
  exact Cert.Spec.div_sqrt_64 _

/-- Inserting key `k` as the last coordinate of a row `(b, h, q)`. -/
private theorem lift_ix4 (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  match c with | ⟨0, _⟩ => rfl | ⟨1, _⟩ => rfl | ⟨2, _⟩ => rfl | ⟨3, _⟩ => rfl

/-- The host's maximum over the keys from `-∞`, at row `(b, h, q)`, is the fold of `max` over that row. -/
private theorem hostMax_apply (S : FVec Ideal S2x16x2048x2048 .f32)
    (h' : S2x16x2048x2048.ReducesTo [3] S2x16x2048) (hu : 0 < S_.numel) (b : Fin 2) (h : Fin 16) (q : Fin 2048) :
    Host.reduce (FloatOps.maximumf (F := Ideal) (φ := .f32)) S (val_main_cst_0 (F := Ideal)) h' hu (ix3 b h q)
      = (Finset.univ : Finset (Fin 2048)).fold max Cert.Spec.negInf (fun k : Fin 2048 => S (ix4 b h q k)) := by
  have hr : S2x16x2048x2048.Reduces [3] S2x16x2048 := by decide
  rw [Host.reduce_eq_fold_single FloatOps.maximumf S _ h' hr hu]
  have hf : (S ∘ hr.lift (ix3 b h q)) = fun k : Fin 2048 => S (ix4 b h q k) :=
    funext fun k => congrArg S (lift_ix4 hr b h q k)
  exact congrArg (fun f => Finset.fold max Cert.Spec.negInf f (Finset.univ : Finset (Fin 2048))) hf

/-- The reference's row maximum is the specification's: the fold from `-∞`, met with `-∞` once more. -/
private theorem rowMax_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (q : Fin 2048) :
    val_main_v19 (F := Ideal) x0 x1 x2 (ix3 b h q)
      = Cert.Spec.rowMax (fun k : Fin 2048 => val_main_v16 (F := Ideal) x0 x1 x2 (ix4 b h q k)) := by
  rw [val_main_v19_apply, val_main_v18_apply, val_main_cst_1_apply]
  unfold val_main_v17
  rw [hostMax_apply]
  rfl

/-- The reference's exponentials: the score less its row's maximum, exponentiated. -/
private theorem exps_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (q k : Fin 2048) :
    val_main_v23 (F := Ideal) x0 x1 x2 (ix4 b h q k)
      = Ideal.exp (val_main_v16 (F := Ideal) x0 x1 x2 (ix4 b h q k) - val_main_v19 (F := Ideal) x0 x1 x2 (ix3 b h q)) := by
  have e : idx_main_v20 (idx_main_v21 (ix4 b h q k)) = ix3 b h q := funext fun a => Fin.ext (by
    match a with | ⟨0, _⟩ => rfl | ⟨1, _⟩ => rfl | ⟨2, _⟩ => rfl)
  rw [val_main_v23_apply, val_main_v22_apply, val_main_v21_apply, val_main_v20_apply, e]
  rfl

/-- The reference's row sums: from the constant zero, the sum of the row's exponentials. -/
private theorem sums_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (q : Fin 2048) :
    val_main_v24 (F := Ideal) x0 x1 x2 (ix3 b h q) = ∑ k : Fin 2048, val_main_v23 (F := Ideal) x0 x1 x2 (ix4 b h q k) := by
  have e : ∀ k : Fin 2048, idx_main_v24 (ix3 b h q) k = ix4 b h q k := fun k => funext fun a => Fin.ext (by
    match a with | ⟨0, _⟩ => rfl | ⟨1, _⟩ => rfl | ⟨2, _⟩ => rfl | ⟨3, _⟩ => rfl)
  rw [val_main_v24_apply, val_main_cst_2_apply]
  simp only [e, Ideal.ofBits_def, Ideal.ofBits_zero_f32, zero_add]

/-- The reference's probabilities: each exponential over its row's sum. -/
private theorem probs_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (q k : Fin 2048) :
    val_main_v27 (F := Ideal) x0 x1 x2 (ix4 b h q k)
      = Ideal.div (val_main_v23 (F := Ideal) x0 x1 x2 (ix4 b h q k)) (val_main_v24 (F := Ideal) x0 x1 x2 (ix3 b h q)) := by
  have e : idx_main_v25 (idx_main_v26 (ix4 b h q k)) = ix3 b h q := funext fun a => Fin.ext (by
    match a with | ⟨0, _⟩ => rfl | ⟨1, _⟩ => rfl | ⟨2, _⟩ => rfl)
  rw [val_main_v27_apply, val_main_v26_apply, val_main_v25_apply, e]
  rfl

/-- The reference's value product at `(b, s, h, d)`: over the keys, the value's feature `d` times the probability of the key for query `s`. -/
private theorem rhs_apply (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (s : Fin 2048) (h : Fin 16) (d : Fin 64) :
    val_main_v29 (F := Ideal) x0 x1 x2 (ix4 b s h d)
      = ∑ k : Fin 2048, val_main_v12 (F := Ideal) x0 x1 x2 (ix4 b h k d) * val_main_v27 (F := Ideal) x0 x1 x2 (ix4 b h s k) := by
  have el : ∀ k : Fin 2048, lidx_main_v28 (idx_main_v29 (ix4 b s h d)) k = ix4 b h k d := fun k => funext fun a => Fin.ext (by
    match a with | ⟨0, _⟩ => rfl | ⟨1, _⟩ => rfl | ⟨2, _⟩ => rfl | ⟨3, _⟩ => rfl)
  have er : ∀ k : Fin 2048, ridx_main_v28 (idx_main_v29 (ix4 b s h d)) k = ix4 b h s k := fun k => funext fun a => Fin.ext (by
    match a with | ⟨0, _⟩ => rfl | ⟨1, _⟩ => rfl | ⟨2, _⟩ => rfl | ⟨3, _⟩ => rfl)
  rw [val_main_v29_apply, val_main_v28_apply]
  simp only [el, er]

/-- Attention over the stacked heads, unstacked and with the head axis moved behind the position axis, is the reference's
    `av` before its final reshape: the same scores (a quotient by `√64` is the product with `1/8`), the same softmax, the
    value product with its factors in the other order. -/
theorem attn_eq (x0 : (⟨S2x2048x1024, .f32⟩ : BufTy).Contents (Elt Ideal)) (x1 : (⟨S1024x3072, .f32⟩ : BufTy).Contents (Elt Ideal))
    (x2 : (⟨S3072, .f32⟩ : BufTy).Contents (Elt Ideal))
    (h1 : S2x16x2048x64.ShapeCasts (⟨3, ![32, 2048, 64]⟩ : Shape)) (h2 : (⟨3, ![32, 2048, 64]⟩ : Shape).ShapeCasts S2x16x2048x64)
    (h3 : S2x16x2048x64.Transposes [0, 2, 1, 3] S2x2048x16x64) :
    transpose S2x2048x16x64 [0, 2, 1, 3]
        (shapeCast S2x16x2048x64
          (Cert.Spec.attn (shapeCast (⟨3, ![32, 2048, 64]⟩ : Shape) (val_main_v8 (F := Ideal) x0 x1 x2) h1)
            (shapeCast (⟨3, ![32, 2048, 64]⟩ : Shape) (val_main_v10 (F := Ideal) x0 x1 x2) h1)
            (shapeCast (⟨3, ![32, 2048, 64]⟩ : Shape) (val_main_v12 (F := Ideal) x0 x1 x2) h1)) h2) h3
      = val_main_v29 (F := Ideal) x0 x1 x2 := by
  funext i
  obtain ⟨b, s, h, d, rfl⟩ : ∃ (b : Fin 2) (s : Fin 2048) (h : Fin 16) (d : Fin 64), i = ix4 b s h d :=
    ⟨i 0, i 1, i 2, i 3, eq_ix4 i⟩
  have hsc : score (val_main_v8 (F := Ideal) x0 x1 x2) (val_main_v10 (F := Ideal) x0 x1 x2) b h s
      = fun k : Fin 2048 => val_main_v16 (F := Ideal) x0 x1 x2 (ix4 b h s k) :=
    funext fun k => (scores_apply x0 x1 x2 b h s k).symm
  rw [lhs_apply _ _ _ h1 h2 h3 b s h d, rhs_apply, hsc]
  unfold Cert.Spec.softmaxDot
  refine Finset.sum_congr rfl fun k _ => ?_
  simp only [probs_apply, sums_apply, exps_apply, rowMax_apply]
  exact mul_comm _ _

end Cert.Bridge.Attn

end
-- ==== Proof.BridgeOut.lean ====
/-
  The output projection: the dense layer over the 4096 flattened rows of the attention output, folded back to [2, 2048, 1024], is the reference's last einsum plus its broadcast bias.
-/
import proofs.«148321_j71133248356497_1_alg».proof.Proof.Gen.ReferenceIdeal.Read
import proofs.«148321_j71133248356497_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.Out

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- The flattened attention output at row `b * 2048 + s`, column `k`, is the four-axis output at the index with the same
    row-major position, whose head is `k / 64` and whose feature is `k % 64`. -/
private theorem flat_A {α : Type} (A : S2x2048x16x64.Idx → α) (h1 : S2x2048x16x64.ShapeCasts (⟨2, ![4096, 1024]⟩ : Shape))
    (b : Fin 2) (s : Fin 2048) (k : Fin 1024) (r : Fin 4096) (hr : r.val = b.val * 2048 + s.val) :
    shapeCast (⟨2, ![4096, 1024]⟩ : Shape) A h1 (ix2 r k) = A (idx_main_v30 (ix3 b s k)) :=
  shapeCast_apply A h1 _ _ (by
    rw [Shape.rowMajor_val_four, Shape.rowMajor_val_two]
    have hb : b.val < 2 := b.isLt
    have hs : s.val < 2048 := s.isLt
    have hk : k.val < 1024 := k.isLt
    show ((((b.val * 2048 + s.val) * 1024 + k.val) / 2097152 * 2048 + ((b.val * 2048 + s.val) * 1024 + k.val) / 1024 % 2048) * 16
        + ((b.val * 2048 + s.val) * 1024 + k.val) / 64 % 16) * 64 + ((b.val * 2048 + s.val) * 1024 + k.val) % 64 = r.val * 1024 + k.val
    omega)

/-- The bias as a one-row matrix is the bias. -/
private theorem flat_x4 {α : Type} (x : S1024.Idx → α) (h2 : S1024.ShapeCasts (⟨2, ![1, 1024]⟩ : Shape))
    (u : Fin 1) (n : Fin 1024) :
    shapeCast (⟨2, ![1, 1024]⟩ : Shape) x h2 (ix2 u n) = x (ix1 n) :=
  shapeCast_a_1a_apply x h2 u n

/-- The result folded back to three axes at `(b, s, n)` is the matrix at row `b * 2048 + s`. -/
private theorem fold_out {α : Type} (y : (⟨2, ![4096, 1024]⟩ : Shape).Idx → α) (h3 : (⟨2, ![4096, 1024]⟩ : Shape).ShapeCasts S2x2048x1024)
    (b : Fin 2) (s : Fin 2048) (n : Fin 1024) (r : Fin 4096) (hr : r.val = b.val * 2048 + s.val) :
    shapeCast S2x2048x1024 y h3 (ix3 b s n) = y (ix2 r n) :=
  shapeCast_apply y h3 _ _ (by
    rw [Shape.rowMajor_val_three, Shape.rowMajor_val_two]
    show r.val * 1024 + n.val = (b.val * 2048 + s.val) * 1024 + n.val
    rw [hr])

/-- The dense layer of the flattened attention output, read back in three axes, is the reference's result. -/
theorem out_eq (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal))
    (h1 : S2x2048x16x64.ShapeCasts (⟨2, ![4096, 1024]⟩ : Shape)) (h2 : S1024.ShapeCasts (⟨2, ![1, 1024]⟩ : Shape))
    (h3 : (⟨2, ![4096, 1024]⟩ : Shape).ShapeCasts S2x2048x1024) :
    shapeCast S2x2048x1024 (Cert.Spec.linear (shapeCast (⟨2, ![4096, 1024]⟩ : Shape) (val_main_v29 (F := Ideal) x0 x1 x2) h1) x3
        (shapeCast (⟨2, ![1, 1024]⟩ : Shape) x4 h2)) h3
      = val_main_v34 (F := Ideal) x0 x1 x2 x3 x4 := by
  funext i
  obtain ⟨b, s, n, rfl⟩ : ∃ b s n, i = ix3 b s n := ⟨i 0, i 1, i 2, eq_ix3 i⟩
  have hb : b.val < 2 := b.isLt
  have hs : s.val < 2048 := s.isLt
  rw [fold_out _ h3 b s n ⟨b.val * 2048 + s.val, by omega⟩ rfl]
  have el : ∀ k : Fin 1024, lidx_main_v31 (ix3 b s n) k = ix3 b s k := fun k => funext fun a => Fin.ext (by
    match a with | ⟨0, _⟩ => rfl | ⟨1, _⟩ => rfl | ⟨2, _⟩ => rfl)
  have er : ∀ k : Fin 1024, ridx_main_v31 (ix3 b s n) k = ix2 k n := fun k => funext fun a => Fin.ext (by
    match a with | ⟨0, _⟩ => rfl | ⟨1, _⟩ => rfl)
  have eb : idx_main_v32 (idx_main_v33 (ix3 b s n)) = ix1 n := funext fun a => Fin.ext (by
    match a with | ⟨0, _⟩ => rfl)
  rw [val_main_v34_apply, val_main_v31_apply, val_main_v33_apply, val_main_v32_apply, eb]
  simp only [el, er, val_main_v30_apply]
  generalize val_main_v29 (F := Ideal) x0 x1 x2 = A
  show (∑ k : Fin 1024, shapeCast (⟨2, ![4096, 1024]⟩ : Shape) A h1 (ix2 ⟨b.val * 2048 + s.val, by omega⟩ k) * x3 (ix2 k n))
      + shapeCast (⟨2, ![1, 1024]⟩ : Shape) x4 h2 (ix2 (0 : Fin 1) n) = _
  rw [flat_x4 x4 h2 0 n]
  simp only [flat_A A h1 b s _ ⟨b.val * 2048 + s.val, by omega⟩ rfl]
  rfl

end Cert.Bridge.Out

end
-- ==== Proof.KernelRefEq.lean ====
/-
  The kernel program's whole-layer term is the reference's: the fused projection, the attention core and the output
  projection each meet the reference's corresponding stage, and the layout operations between them are the same
  operations on both sides.
-/
import proofs.«148321_j71133248356497_1_alg».proof.Proof.KernelValue
import proofs.«148321_j71133248356497_1_alg».proof.Proof.BridgeQkv
import proofs.«148321_j71133248356497_1_alg».proof.Proof.BridgeAttn
import proofs.«148321_j71133248356497_1_alg».proof.Proof.BridgeOut

set_option maxRecDepth 16384

noncomputable section

namespace Cert.Bridge.Whole

open Idealize.ShloMosaic Idealize.ShloMosaic.TcCoe Idealize.SL.Sem
open Cert.ReferenceIdeal.Read

/-- The projected activations are the reference's `qkv`. -/
theorem qkvOf_eq (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal)) :
    Cert.KernelIdeal.Whole.qkvOf x0 x1 x2 = val_main_v3 (F := Ideal) x0 x1 x2 :=
  Cert.Bridge.Qkv.qkv_eq x0 x1 x2 _ _ _

/-- The attention output is the reference's, before its last reshape: both cut, split and stack the same `qkv` by the
    same layout operations. -/
theorem avOf_eq (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal)) :
    Cert.KernelIdeal.Whole.avOf (Cert.KernelIdeal.Whole.qkvOf x0 x1 x2) = val_main_v29 (F := Ideal) x0 x1 x2 := by
  rw [qkvOf_eq]
  unfold Cert.KernelIdeal.Whole.avOf Cert.KernelIdeal.Whole.heads
  exact Cert.Bridge.Attn.attn_eq x0 x1 x2 _ _ _

/-- The whole layer is the reference's result. -/
theorem kernelOut_eq (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) :
    Cert.KernelIdeal.Whole.kernelOut x0 x1 x2 x3 x4 = val_main_v34 (F := Ideal) x0 x1 x2 x3 x4 := by
  unfold Cert.KernelIdeal.Whole.kernelOut
  rw [avOf_eq]
  exact Cert.Bridge.Out.out_eq x0 x1 x2 x3 x4 _ _ _

end Cert.Bridge.Whole

end
-- ==== Proof.lean ====
/-
  Dense multi-head attention with a fused QKV projection, as three tiled kernels (projection, attention, output
  projection) with layout changes between them, against the same layer written with einsums.

  Over the extended reals the two programs compute one function of the five arguments. The projection
  `x·W_qkv + b_qkv` is a contraction over the 1024 input features on both sides; the kernel computes it on the 4096
  flattened rows, 512 at a time, and a row tile of a product is the product of the row tile. Its three column thirds are
  cut into 16 heads of 64 features by the same layout operations on both sides. For each head and query position the
  kernel scores a key by the feature product times 1/8 and the reference by the feature product over `√64`; `√64 = 8`
  exactly and a quotient by a nonzero real is the product with its reciprocal on every extended real, so the scores agree
  with no condition on the inputs. Both take the row maximum from `-∞`, subtract it, exponentiate, divide by the row sum
  and contract with the values (the factors of that last product in opposite orders: multiplication commutes). The output
  projection is again a contraction on both sides, plus a broadcast bias. Changes of float format are the identity here.

  The three frames are the programs' runs with the result dropped; the kernel's idealization rewrote nothing, so there is
  nothing to preserve.
-/
import proofs.«148321_j71133248356497_1_alg».proof.Defs
import proofs.«148321_j71133248356497_1_alg».proof.Proof.Gen.Kernel
import proofs.«148321_j71133248356497_1_alg».proof.Proof.Gen.Kernel.Frame
import proofs.«148321_j71133248356497_1_alg».proof.Proof.Gen.KernelIdeal
import proofs.«148321_j71133248356497_1_alg».proof.Proof.Gen.KernelIdeal.Frame
import proofs.«148321_j71133248356497_1_alg».proof.Proof.Gen.ReferenceIdeal
import proofs.«148321_j71133248356497_1_alg».proof.Proof.Gen.ReferenceIdeal.Run
import proofs.«148321_j71133248356497_1_alg».proof.Proof.Gen.ReferenceIdeal.Read
import proofs.«148321_j71133248356497_1_alg».proof.Proof.Gen.Pre_finite_inputs
import proofs.«148321_j71133248356497_1_alg».proof.Proof.KernelRun
import proofs.«148321_j71133248356497_1_alg».proof.Proof.KernelValue
import proofs.«148321_j71133248356497_1_alg».proof.Proof.KernelRefEq

noncomputable section

namespace Cert.Proof

open Idealize.ShloMosaic Idealize.ShloMosaic.TcCoe Idealize.SL.Sem

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both idealized programs run and end with the same result: the kernel
    program's is the whole-layer term of its arguments, the reference's its composed term of its own, and the two terms are
    one function. -/
theorem algebraic : Cert.algebraic_KernelIdeal_ReferenceIdeal := by
  intro m ρ m' ρ' _ hagree
  refine ⟨fun c => Cert.KernelIdeal.Whole.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.W7_v25 m ρ c), (h c).2⟩)
      (Cert.KernelIdeal.GenRun.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2]
    exact (Cert.Bridge.Whole.kernelOut_eq _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
